-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x32x32 : Shape := ⟨4, ![256, 512, 32, 32]⟩
abbrev S32x512 : Shape := ⟨2, ![32, 512]⟩
abbrev S32 : Shape := ⟨1, ![32]⟩
abbrev S1024x32 : Shape := ⟨2, ![1024, 32]⟩
abbrev S1024 : Shape := ⟨1, ![1024]⟩
abbrev S_ : Shape := ⟨0, ![]⟩

class Facts : Prop where
  bcast_S_S256x512x32x32 : S_.BroadcastsInDim S256x512x32x32 (![] : Fin 0 → Fin S256x512x32x32.rank)
  reducesTo_S256x512x32x32_S_d0_1_2_3 : S256x512x32x32.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S1024x32 : S_.BroadcastsInDim S1024x32 (![] : Fin 0 → Fin S1024x32.rank)
  reducesTo_S1024x32_S_d0_1 : S1024x32.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S256x512x32x32 .f32) (main_arg1 : FVec F S32x512 .f32) (main_arg2 : FVec F S32 .f32) (main_arg3 : FVec F S1024x32 .f32) (main_arg4 : FVec F S1024 .f32) : IVec S_ 1 :=
  let main_v0 : FVec F S256x512x32x32 .f32 := Host.absf main_arg0
  let main_cst : FVec F S_ .f32 := constant S_ .f32 0x7F800000#32
  let main_v1 : FVec F S256x512x32x32 .f32 := broadcastInDim S256x512x32x32 ![] bcast_S_S256x512x32x32 main_cst
  let main_v2 : IVec S256x512x32x32 1 := cmpf .olt main_v0 main_v1
  let main_c : IVec S_ 1 := constantI S_ 1 1#1
  let main_v3 : IVec S_ 1 := (fun x v => Host.reduce IntOp.andi x v reducesTo_S256x512x32x32_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S1024x32 .f32 := Host.absf main_arg3
  let main_cst_4 : FVec F S_ .f32 := constant S_ .f32 0x7F800000#32
  let main_v15 : FVec F S1024x32 .f32 := broadcastInDim S1024x32 ![] bcast_S_S1024x32 main_cst_4
  let main_v16 : IVec S1024x32 1 := cmpf .olt main_v14 main_v15
  fn_part1 (F := F) main_arg4 main_v13 main_v16
-- ==== Kernel.lean ====
abbrev S256x512x32x32 : Shape := ⟨4, ![256, 512, 32, 32]⟩
abbrev S32x512 : Shape := ⟨2, ![32, 512]⟩
abbrev S32 : Shape := ⟨1, ![32]⟩
abbrev S1024x32 : Shape := ⟨2, ![1024, 32]⟩
abbrev S1024 : Shape := ⟨1, ![1024]⟩
abbrev S256x512x1x1 : Shape := ⟨4, ![256, 512, 1, 1]⟩
abbrev S32x128x32x32 : Shape := ⟨4, ![32, 128, 32, 32]⟩
abbrev S32x128x1x1 : Shape := ⟨4, ![32, 128, 1, 1]⟩
abbrev S32x128 : Shape := ⟨2, ![32, 128]⟩
abbrev S256x512 : Shape := ⟨2, ![256, 512]⟩
abbrev S512x32 : Shape := ⟨2, ![512, 32]⟩
abbrev S256x32 : Shape := ⟨2, ![256, 32]⟩
abbrev S1x32 : Shape := ⟨2, ![1, 32]⟩
abbrev S_ : Shape := ⟨0, ![]⟩
abbrev S32x1024 : Shape := ⟨2, ![32, 1024]⟩
abbrev S256x1024 : Shape := ⟨2, ![256, 1024]⟩
abbrev S1x1024 : Shape := ⟨2, ![1, 1024]⟩
abbrev S32x64x32x32 : Shape := ⟨4, ![32, 64, 32, 32]⟩
abbrev S32x64x1x1 : Shape := ⟨4, ![32, 64, 1, 1]⟩

abbrev nBuf : Space → Nat
  | .hbm => 33
  | .vmem => 12
  | .smem => 0
  | _ => 0

abbrev bufTy : (tb : Table) → Fin (tcTables nBuf tb) → BufTy
  | .hbm, ⟨0, _⟩ => ⟨S256x512x32x32, .f32⟩
  | .hbm, ⟨1, _⟩ => ⟨S32x512, .f32⟩
  | .hbm, ⟨2, _⟩ => ⟨S32, .f32⟩
  | .hbm, ⟨3, _⟩ => ⟨S1024x32, .f32⟩
  | .hbm, ⟨4, _⟩ => ⟨S1024, .f32⟩
  | .hbm, ⟨5, _⟩ => ⟨S256x512x1x1, .f32⟩
  | .hbm, ⟨6, _⟩ => ⟨S256x512, .f32⟩
  | .hbm, ⟨7, _⟩ => ⟨S512x32, .f32⟩
  | .hbm, ⟨8, _⟩ => ⟨S256x32, .f32⟩
  | .hbm, ⟨9, _⟩ => ⟨S1x32, .f32⟩
  | .hbm, ⟨10, _⟩ => ⟨S256x32, .f32⟩
  | .hbm, ⟨11, _⟩ => ⟨S256x32, .f32⟩
  | .hbm, ⟨12, _⟩ => ⟨S_, .f32⟩
  | .hbm, ⟨13, _⟩ => ⟨S256x32, .f32⟩
  | .hbm, ⟨14, _⟩ => ⟨S256x32, .f32⟩
  | .hbm, ⟨15, _⟩ => ⟨S32x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x512, .f32⟩
  | .hbm, ⟨21, _⟩ => ⟨S256x512, .f32⟩
  | .hbm, ⟨22, _⟩ => ⟨S256x512, .f32⟩
  | .hbm, ⟨23, _⟩ => ⟨S_, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512x1x1, .f32⟩
  | .hbm, ⟨30, _⟩ => ⟨S256x512, .f32⟩
  | .hbm, ⟨31, _⟩ => ⟨S256x512x1x1, .f32⟩
  | .hbm, ⟨32, _⟩ => ⟨S256x512x32x32, .f32⟩
  | .local _ .vmem, ⟨0, _⟩ => ⟨S32x128x32x32, .f32⟩
  | .local _ .vmem, ⟨1, _⟩ => ⟨S32x128x32x32, .f32⟩
  | .local _ .vmem, ⟨2, _⟩ => ⟨S32x128x1x1, .f32⟩
  | .local _ .vmem, ⟨3, _⟩ => ⟨S32x128x1x1, .f32⟩
  | .local _ .vmem, ⟨4, _⟩ => ⟨S32x64x32x32, .f32⟩
  | .local _ .vmem, ⟨5, _⟩ => ⟨S32x64x32x32, .f32⟩
  | .local _ .vmem, ⟨6, _⟩ => ⟨S32x64x1x1, .f32⟩
  | .local _ .vmem, ⟨7, _⟩ => ⟨S32x64x1x1, .f32⟩
  | .local _ .vmem, ⟨8, _⟩ => ⟨S32x64x1x1, .f32⟩
  | .local _ .vmem, ⟨9, _⟩ => ⟨S32x64x1x1, .f32⟩
  | .local _ .vmem, ⟨10, _⟩ => ⟨S32x64x32x32, .f32⟩
  | .local _ .vmem, ⟨11, _⟩ => ⟨S32x64x32x32, .f32⟩
  | _, _ => ⟨S256x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S32x128x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S32x64x32x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x64x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x64x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S32x64x32x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S32x128x32x32_S32x128x32x32_0_0_0_0 : ∀ a, (![0, 0, 0, 0] : Fin 4 → Nat) a + S32x128x32x32.size a ≤ S32x128x32x32.size a
  h_S32x128x32x32 : 0 < S32x128x32x32.numel
  reduces_S32x128x32x32_S32x128 : S32x128x32x32.Reduces [2, 3] S32x128
  shapeCasts_S32x128_S32x128x1x1 : S32x128.ShapeCasts S32x128x1x1
  inb_S32x128x1x1_S32x128x1x1_0_0_0_0 : ∀ a, (![0, 0, 0, 0] : Fin 4 → Nat) a + S32x128x1x1.size a ≤ S32x128x1x1.size a
  h_S32x128x1x1 : 0 < S32x128x1x1.numel
  shapeCasts_S256x512x1x1_S256x512 : S256x512x1x1.ShapeCasts S256x512
  transposes_S32x512_S512x32_1_0 : S32x512.Transposes [1, 0] S512x32
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  transposes_S1024x32_S32x1024_1_0 : S1024x32.Transposes [1, 0] S32x1024
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  slices_S256x1024_S256x512_0_0 : S256x1024.Slices ![0, 0] S256x512
  bcast_S_S256x512 : S_.BroadcastsInDim S256x512 (![] : Fin 0 → Fin S256x512.rank)
  shapeCasts_S256x512_S256x512x1x1 : S256x512.ShapeCasts S256x512x1x1
  slices_S256x1024_S256x512_0_512 : S256x1024.Slices ![0, 512] S256x512
  inb_S32x64x32x32_S32x64x32x32_0_0_0_0 : ∀ a, (![0, 0, 0, 0] : Fin 4 → Nat) a + S32x64x32x32.size a ≤ S32x64x32x32.size a
  h_S32x64x32x32 : 0 < S32x64x32x32.numel
  inb_S32x64x1x1_S32x64x1x1_0_0_0_0 : ∀ a, (![0, 0, 0, 0] : Fin 4 → Nat) a + S32x64x1x1.size a ≤ S32x64x1x1.size a
  h_S32x64x1x1 : 0 < S32x64x1x1.numel
  shapeCasts_S32x64x1x1_S32x64x1x1 : S32x64x1x1.ShapeCasts S32x64x1x1
  broadcasts_S32x64x1x1_S32x64x32x32 : S32x64x1x1.Broadcasts S32x64x32x32
  dot_S256x512_S512x32_S256x32_1_0_0_1_n_n_wf : DotDims.WF S256x512 S512x32 S256x32 [1] [0] [0] [1] [] []
  dot_S256x32_S32x1024_S256x1024_1_0_0_1_n_n_wf : DotDims.WF S256x32 S32x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x32x32.size a ≤ S256x512x32x32.size a
  hwx0_0 : ∀ i : grid0.Coords, EltTy.bits .f32 = 32 ∨ (Rect.block (s := S256x512x32x32) S32x128x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x1x1.size a ≤ S256x512x1x1.size a
  hwx0_1 : ∀ i : grid0.Coords, EltTy.bits .f32 = 32 ∨ (Rect.block (s := S256x512x1x1) S32x128x1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x64x32x32.size a ≤ S256x512x32x32.size a
  hwx1_0 : ∀ i : grid1.Coords, EltTy.bits .f32 = 32 ∨ (Rect.block (s := S256x512x32x32) S32x64x32x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x64x1x1.size a ≤ S256x512x1x1.size a
  hwx1_1 : ∀ i : grid1.Coords, EltTy.bits .f32 = 32 ∨ (Rect.block (s := S256x512x1x1) S32x64x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x64x1x1.size a ≤ S256x512x1x1.size a
  hwx1_2 : ∀ i : grid1.Coords, EltTy.bits .f32 = 32 ∨ (Rect.block (s := S256x512x1x1) S32x64x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x64x32x32.size a ≤ S256x512x32x32.size a
  hwx1_3 : ∀ i : grid1.Coords, EltTy.bits .f32 = 32 ∨ (Rect.block (s := S256x512x32x32) S32x64x32x32.size (cc1_transform_3 i) (hinb1_3 i)).WholeWords (EltTy.packing .f32)

variable [Facts₀]

def dot_S256x512_S512x32_S256x32_1_0_0_1_n_n : DotDims S256x512 S512x32 S256x32 where
  lhsContracting := [1]
  rhsContracting := [0]
  lhsNonContracting := [0]
  rhsNonContracting := [1]
  lhsBatch := []
  rhsBatch := []
  wf := dot_S256x512_S512x32_S256x32_1_0_0_1_n_n_wf
def dot_S256x32_S32x1024_S256x1024_1_0_0_1_n_n : DotDims S256x32 S32x1024 S256x1024 where
  lhsContracting := [1]
  rhsContracting := [0]
  lhsNonContracting := [0]
  rhsNonContracting := [1]
  lhsBatch := []
  rhsBatch := []
  wf := dot_S256x32_S32x1024_S256x1024_1_0_0_1_n_n_wf

abbrev win0_0 : Pipeline.Window sig grid0 :=
  Pipeline.Window.ofSpec (Memref.whole main_arg0) S32x128x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x128x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S32x64x32x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S32x64x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S32x64x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S32x64x32x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S256x512x32x32 : Shape := ⟨4, ![256, 512, 32, 32]⟩
abbrev S32x512 : Shape := ⟨2, ![32, 512]⟩
abbrev S32 : Shape := ⟨1, ![32]⟩
abbrev S1024x32 : Shape := ⟨2, ![1024, 32]⟩
abbrev S1024 : Shape := ⟨1, ![1024]⟩
abbrev S_ : Shape := ⟨0, ![]⟩
abbrev S256x512 : Shape := ⟨2, ![256, 512]⟩
abbrev S512x32 : Shape := ⟨2, ![512, 32]⟩
abbrev S256x32 : Shape := ⟨2, ![256, 32]⟩
abbrev S1x32 : Shape := ⟨2, ![1, 32]⟩
abbrev S32x1024 : Shape := ⟨2, ![32, 1024]⟩
abbrev S256x1024 : Shape := ⟨2, ![256, 1024]⟩
abbrev S1x1024 : Shape := ⟨2, ![1, 1024]⟩
abbrev S256x512x1x1 : Shape := ⟨4, ![256, 512, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S256x512x32x32, .f32⟩
  | .hbm, ⟨1, _⟩ => ⟨S32x512, .f32⟩
  | .hbm, ⟨2, _⟩ => ⟨S32, .f32⟩
  | .hbm, ⟨3, _⟩ => ⟨S1024x32, .f32⟩
  | .hbm, ⟨4, _⟩ => ⟨S1024, .f32⟩
  | .hbm, ⟨5, _⟩ => ⟨S_, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S512x32, .f32⟩
  | .hbm, ⟨11, _⟩ => ⟨S256x32, .f32⟩
  | .hbm, ⟨12, _⟩ => ⟨S1x32, .f32⟩
  | .hbm, ⟨13, _⟩ => ⟨S256x32, .f32⟩
  | .hbm, ⟨14, _⟩ => ⟨S256x32, .f32⟩
  | .hbm, ⟨15, _⟩ => ⟨S_, .f32⟩
  | .hbm, ⟨16, _⟩ => ⟨S256x32, .f32⟩
  | .hbm, ⟨17, _⟩ => ⟨S256x32, .f32⟩
  | .hbm, ⟨18, _⟩ => ⟨S32x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S256x512, .f32⟩
  | .hbm, ⟨27, _⟩ => ⟨S_, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512x1x1, .f32⟩
  | .hbm, ⟨34, _⟩ => ⟨S256x512x1x1, .f32⟩
  | .hbm, ⟨35, _⟩ => ⟨S256x512x32x32, .f32⟩
  | .hbm, ⟨36, _⟩ => ⟨S256x512x32x32, .f32⟩
  | .hbm, ⟨37, _⟩ => ⟨S256x512x32x32, .f32⟩
  | .hbm, ⟨38, _⟩ => ⟨S256x512x32x32, .f32⟩
  | _, _ => ⟨S256x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S256x512x32x32_S256x512_d2_3 : S256x512x32x32.ReducesTo [2, 3] S256x512
  h_S_ : 0 < S_.numel
  bcast_S_S256x512 : S_.BroadcastsInDim S256x512 (![] : Fin 0 → Fin S256x512.rank)
  transposes_S32x512_S512x32_1_0 : S32x512.Transposes [1, 0] S512x32
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  transposes_S1024x32_S32x1024_1_0 : S1024x32.Transposes [1, 0] S32x1024
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  slices_S256x1024_S256x512_0_0 : S256x1024.Slices ![0, 0] S256x512
  slices_S256x1024_S256x512_0_512 : S256x1024.Slices ![0, 512] S256x512
  bcast_S256x512_S256x512x1x1_0_1 : S256x512.BroadcastsInDim S256x512x1x1 (![0, 1] : Fin 2 → Fin S256x512x1x1.rank)
  bcast_S256x512x1x1_S256x512x32x32_0_1_2_3 : S256x512x1x1.BroadcastsInDim S256x512x32x32 (![0, 1, 2, 3] : Fin 4 → Fin S256x512x32x32.rank)
  dot_S256x512_S512x32_S256x32_1_0_0_1_n_n_wf : DotDims.WF S256x512 S512x32 S256x32 [1] [0] [0] [1] [] []
  dot_S256x32_S32x1024_S256x1024_1_0_0_1_n_n_wf : DotDims.WF S256x32 S32x1024 S256x1024 [1] [0] [0] [1] [] []

variable [Facts₀]

def dot_S256x512_S512x32_S256x32_1_0_0_1_n_n : DotDims S256x512 S512x32 S256x32 where
  lhsContracting := [1]
  rhsContracting := [0]
  lhsNonContracting := [0]
  rhsNonContracting := [1]
  lhsBatch := []
  rhsBatch := []
  wf := dot_S256x512_S512x32_S256x32_1_0_0_1_n_n_wf
def dot_S256x32_S32x1024_S256x1024_1_0_0_1_n_n : DotDims S256x32 S32x1024 S256x1024 where
  lhsContracting := [1]
  rhsContracting := [0]
  lhsNonContracting := [0]
  rhsNonContracting := [1]
  lhsBatch := []
  rhsBatch := []
  wf := dot_S256x32_S32x1024_S256x1024_1_0_0_1_n_n_wf

class Facts : Prop extends Facts₀ where

variable [Facts]
-- ==== Proof.LibChannelwise.lean ====
/-
  Per-channel reductions and layouts of a rank-4 array [A, B, H, W], generic in the four extents.

  * A sum over the two trailing axes: the set of indices whose first two coordinates are (a, b) is the image of
    (h, w) ↦ (a, b, h, w), so a sum over that set is the double sum over h and w (`sum_filter_trailing2`); read
    through it, a vector `multi_reduction <add>` over the axes [2, 3] and the host's `reduce add` over the same axes
    at the extended reals are that double sum (the host's with its initial value in front).
  * The per-channel layouts read at an index: the reshapes [A, B] → [A, B, 1, 1] and back, the host's
    `broadcast_in_dim` [A, B] → [A, B, 1, 1] and [A, B, 1, 1] → [A, B, H, W], and a vector broadcast
    [A, B, 1, 1] → [A, B, H, W]: each reads the (a, b) entry.
-/
import Idealize.ShloMosaic.Lib.ValueIdx
import Idealize.ShloMosaic.Lib.Pipeline.Value
import Idealize.ShloMosaic.PureOps.Ideal.Laws

noncomputable section

namespace Cert.Lib.Channelwise

open Idealize.ShloMosaic Idealize.ShloMosaic.ValueIdx

/-! ## The sum over the two trailing axes -/

section Sum

variable {A B H W : Nat}

/-- An index whose image under a map that keeps the first two coordinates is (a, b) is (a, b, h, w) with its
    own h and w. -/
theorem eq_ix4_of_keep (keep : (⟨4, ![A, B, H, W]⟩ : Shape).Idx → (⟨2, ![A, B]⟩ : Shape).Idx)
    (h0 : ∀ i, ((keep i 0 : Fin A) : Nat) = (i 0 : Fin A)) (h1 : ∀ i, ((keep i 1 : Fin B) : Nat) = (i 1 : Fin B))
    (a : Fin A) (b : Fin B) (i : (⟨4, ![A, B, H, W]⟩ : Shape).Idx) (hi : keep i = ix2 a b) :
    i = ix4 a b (i 2) (i 3) := by
  have e0 : ((i 0 : Fin A) : Nat) = a := by rw [← h0 i, hi]; rfl
  have e1 : ((i 1 : Fin B) : Nat) = b := by rw [← h1 i, hi]; rfl
  funext d
  apply Fin.ext
  match d with
  | ⟨0, _⟩ => exact e0
  | ⟨1, _⟩ => exact e1
  | ⟨2, _⟩ => rfl
  | ⟨3, _⟩ => rfl

/-- A sum over the indices that a coordinate-keeping map sends to (a, b) is the double sum over the two trailing
    coordinates. -/
theorem sum_filter_trailing2 {M : Type*} [AddCommMonoid M]
    (keep : (⟨4, ![A, B, H, W]⟩ : Shape).Idx → (⟨2, ![A, B]⟩ : Shape).Idx)
    (h0 : ∀ i, ((keep i 0 : Fin A) : Nat) = (i 0 : Fin A)) (h1 : ∀ i, ((keep i 1 : Fin B) : Nat) = (i 1 : Fin B))
    (x : (⟨4, ![A, B, H, W]⟩ : Shape).Idx → M) (a : Fin A) (b : Fin B)
    [DecidablePred fun i => keep i = ix2 a b] :
    ∑ i ∈ Finset.univ.filter (fun i => keep i = ix2 a b), x i = ∑ h : Fin H, ∑ w : Fin W, x (ix4 a b h w) := by
  rw [← Fintype.sum_prod_type' (fun (h : Fin H) (w : Fin W) => x (ix4 a b h w))]
  refine Finset.sum_bij (fun i _ => ((i 2 : Fin H), (i 3 : Fin W))) (fun _ _ => Finset.mem_univ _) ?_ ?_ ?_
  · intro i hi i' hi' e
    have ei := eq_ix4_of_keep keep h0 h1 a b i (Finset.mem_filter.mp hi).2
    have ei' := eq_ix4_of_keep keep h0 h1 a b i' (Finset.mem_filter.mp hi').2
    rw [ei, ei', (Prod.mk.inj e).1, (Prod.mk.inj e).2]
  · intro p _
    refine ⟨ix4 a b p.1 p.2, Finset.mem_filter.mpr ⟨Finset.mem_univ _, ?_⟩, rfl⟩
    funext d
    apply Fin.ext
    match d with
    | ⟨0, _⟩ => exact h0 _
    | ⟨1, _⟩ => exact h1 _
  · intro i hi
    exact congrArg x (eq_ix4_of_keep keep h0 h1 a b i (Finset.mem_filter.mp hi).2)

/-- A vector sum over the axes [2, 3] at the extended reals, read at (a, b). -/
theorem multiReduction_add_trailing2 {φ : FTy} (src : FVec Ideal ⟨4, ![A, B, H, W]⟩ φ) (acc : BitVec φ.bits)
    (h : (⟨4, ![A, B, H, W]⟩ : Shape).Reduces [2, 3] ⟨2, ![A, B]⟩) (hφ : FKind.Formats φ)
    (hacc : acc = FKind.add.neutral φ hφ) (a : Fin A) (b : Fin B) :
    multiReduction .add [2, 3] ⟨2, ![A, B]⟩ src acc h hφ hacc (ix2 a b) = ∑ hh : Fin H, ∑ w : Fin W, src (ix4 a b hh w) :=
  sum_filter_trailing2 h.drop (fun i => h.drop_apply_val_of_eq i 0 0 Nat.zero_lt_two rfl)
    (fun i => h.drop_apply_val_of_eq i 1 1 Nat.one_lt_two rfl) src a b

/-- The host's sum over the axes [2, 3] at the extended reals, read at (a, b): the initial value, then the double sum. -/
theorem hostReduceAdd_trailing2 (h' : (⟨4, ![A, B, H, W]⟩ : Shape).ReducesTo [2, 3] ⟨2, ![A, B]⟩)
    (x : (⟨4, ![A, B, H, W]⟩ : Shape).Idx → EReal) (init : EReal) (a : Fin A) (b : Fin B) :
    Ideal.hostReduceAdd h' x init (ix2 a b) = init + ∑ hh : Fin H, ∑ w : Fin W, x (ix4 a b hh w) := by
  unfold Ideal.hostReduceAdd
  rw [sum_filter_trailing2 h'.drop (fun i => h'.drop_apply_val_of_eq i 0 0 Nat.zero_lt_two rfl)
    (fun i => h'.drop_apply_val_of_eq i 1 1 Nat.one_lt_two rfl) x a b]

end Sum

/-! ## The per-channel layouts read at an index -/

section Layout

variable {A B H W : Nat} {α : Type}

/-- The reshape [A, B] → [A, B, 1, 1] reads (a, b). -/
theorem shapeCast_expand_apply (x : (⟨2, ![A, B]⟩ : Shape).Idx → α)
    (h : (⟨2, ![A, B]⟩ : Shape).ShapeCasts ⟨4, ![A, B, 1, 1]⟩) (a : Fin A) (b : Fin B) (u v : Fin 1) :
    shapeCast ⟨4, ![A, B, 1, 1]⟩ x h (ix4 a b u v) = x (ix2 a b) := by
  refine shapeCast_apply x h _ _ ?_
  rw [Shape.rowMajor_val_two, Shape.rowMajor_val_four]
  show a.val * B + b.val = ((a.val * B + b.val) * 1 + u.val) * 1 + v.val
  have := u.isLt; have := v.isLt; omega

/-- The reshape [A, B, 1, 1] → [A, B] reads (a, b, 0, 0). -/
theorem shapeCast_squeeze_apply (x : (⟨4, ![A, B, 1, 1]⟩ : Shape).Idx → α)
    (h : (⟨4, ![A, B, 1, 1]⟩ : Shape).ShapeCasts ⟨2, ![A, B]⟩) (a : Fin A) (b : Fin B) :
    shapeCast ⟨2, ![A, B]⟩ x h (ix2 a b) = x (ix4 a b 0 0) := by
  refine shapeCast_apply x h _ _ ?_
  rw [Shape.rowMajor_val_two, Shape.rowMajor_val_four]
  show ((a.val * B + b.val) * 1 + 0) * 1 + 0 = a.val * B + b.val
  omega

/-- The host's broadcast [A, B] → [A, B, 1, 1] along the axes (0, 1) reads (a, b). -/
theorem broadcastInDim_expand_apply (x : (⟨2, ![A, B]⟩ : Shape).Idx → α)
    (h : (⟨2, ![A, B]⟩ : Shape).BroadcastsInDim ⟨4, ![A, B, 1, 1]⟩ ![0, 1]) (a : Fin A) (b : Fin B) (u v : Fin 1) :
    broadcastInDim ⟨4, ![A, B, 1, 1]⟩ ![0, 1] h x (ix4 a b u v) = x (ix2 a b) := by
  refine broadcastInDim_apply _ h x _ _ fun d => ?_
  match d with
  | ⟨0, _⟩ =>
    show a.val = if A = 1 then 0 else a.val
    have := a.isLt; split_ifs <;> omega
  | ⟨1, _⟩ =>
    show b.val = if B = 1 then 0 else b.val
    have := b.isLt; split_ifs <;> omega

/-- The host's broadcast [A, B, 1, 1] → [A, B, H, W] along all four axes reads (a, b, 0, 0). -/
theorem broadcastInDim_spread_apply (x : (⟨4, ![A, B, 1, 1]⟩ : Shape).Idx → α)
    (h : (⟨4, ![A, B, 1, 1]⟩ : Shape).BroadcastsInDim ⟨4, ![A, B, H, W]⟩ ![0, 1, 2, 3])
    (a : Fin A) (b : Fin B) (hh : Fin H) (w : Fin W) :
    broadcastInDim ⟨4, ![A, B, H, W]⟩ ![0, 1, 2, 3] h x (ix4 a b hh w) = x (ix4 a b 0 0) := by
  refine broadcastInDim_apply _ h x _ _ fun d => ?_
  match d with
  | ⟨0, _⟩ =>
    show a.val = if A = 1 then 0 else a.val
    have := a.isLt; split_ifs <;> omega
  | ⟨1, _⟩ =>
    show b.val = if B = 1 then 0 else b.val
    have := b.isLt; split_ifs <;> omega
  | ⟨2, _⟩ => rfl
  | ⟨3, _⟩ => rfl

/-- A vector broadcast [A, B, 1, 1] → [A, B, H, W] reads (a, b, 0, 0). -/
theorem broadcastTo_spread_apply (x : (⟨4, ![A, B, 1, 1]⟩ : Shape).Idx → α)
    (h : (⟨4, ![A, B, 1, 1]⟩ : Shape).Broadcasts ⟨4, ![A, B, H, W]⟩)
    (a : Fin A) (b : Fin B) (hh : Fin H) (w : Fin W) :
    broadcastTo ⟨4, ![A, B, H, W]⟩ x h (ix4 a b hh w) = x (ix4 a b 0 0) := by
  refine broadcastTo_apply x h _ _ fun d => ?_
  match d with
  | ⟨0, _⟩ =>
    show a.val = if A = 1 then 0 else a.val
    have := a.isLt; split_ifs <;> omega
  | ⟨1, _⟩ =>
    show b.val = if B = 1 then 0 else b.val
    have := b.isLt; split_ifs <;> omega
  | ⟨2, _⟩ => rfl
  | ⟨3, _⟩ => rfl

end Layout

end Cert.Lib.Channelwise

end
-- ==== Proof.Pooled.lean ====
/-
  The first kernel region (the average pool), read as a value at the extended reals.

  A grid point (i, j) of the 8 × 4 grid loads the block [32 i, 32 i + 32) × [128 j, 128 j + 128) × 32 × 32 of x, sums each
  (b, c) plane over its 32 × 32 entries and scales the sum by 2⁻¹⁰; it writes the [32, 128, 1, 1] result back at the block
  (i, j, 0, 0) of the pooled array. The blocks tile the pooled array, so after the region it holds, at (b, c, 0, 0), the sum
  over h, w of x (b, c, h, w) times 2⁻¹⁰: `pooled` of the array x as the region finds it.
-/
import proofs.«174117_j74612171866186_1_alg».proof.Proof.Gen.KernelIdeal.Frame
import proofs.«174117_j74612171866186_1_alg».proof.Proof.LibChannelwise
import Idealize.ShloMosaic.Lib.Pipeline.Value
import Idealize.ShloMosaic.Lib.ValueIdx

set_option maxRecDepth 16384

noncomputable section

namespace Cert.KernelIdeal.Pool

open Cert.KernelIdeal Cert.KernelIdeal.Gen Cert.Lib.Channelwise
open Idealize.ShloMosaic Idealize.ShloMosaic.TcCoe Idealize.ShloMosaic.ValueIdx Idealize.SL.Sem
open Idealize.ShloMosaic.Pipeline (Dat)

/-- The pooled array of x: at (b, c, ·, ·) the sum of the plane (b, c) of x, times the scale 2⁻¹⁰ (the word 0x3A800000). -/
def pooled (x : FVec Ideal S256x512x32x32 .f32) : FVec Ideal S256x512x1x1 .f32 :=
  fun i => (∑ h : Fin 32, ∑ w : Fin 32, x (ix4 (i 0) (i 1) h w)) * Ideal.ofBits .f32 0x3A800000#32

/-- What a grid point stores, at (p, q, ·, ·) of its block: the sum of the loaded block's plane (p, q), scaled. -/
theorem stored_apply (x0 : FVec Ideal S32x128x32x32 .f32) (p : Fin 32) (q : Fin 128) (u v : Fin 1) :
    k0_pay1 (F := Ideal) x0 (ix4 p q u v)
      = (∑ h : Fin 32, ∑ w : Fin 32, x0 (ix4 p q h w)) * Ideal.ofBits .f32 0x3A800000#32 := by
  unfold k0_pay1
  refine (mulf_apply _ _ _).trans ?_
  refine congrArg₂ (· * ·) ?_ rfl
  refine (shapeCast_expand_apply _ shapeCasts_S32x128_S32x128x1x1 p q u v).trans ?_
  exact multiReduction_add_trailing2 x0 _ reduces_S32x128x32x32_S32x128 (.inl rfl) rfl p q

theorem zero4 : (![0, 0, 0, 0] : Fin 4 → Nat) = fun _ => 0 := funext fun a => by fin_cases a <;> rfl

/-- The two windows' index maps over the grid: the input block moves with the output block on the first two axes
    and is whole on the last two; the output's block indices stay in range. -/
theorem index_facts : ∀ t : Fin cfg0.N, win0_0.index t (0 : Fin 4) = win0_1.index t (0 : Fin 4)
    ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0 :=
  (by decide +kernel : ∀ t : Fin grid0.N, _)

/-- Every block (i, j, 0, 0) of the pooled array is some grid point's. -/
theorem index_onto : ∀ (q0 : Fin 8) (q1 : Fin 4), ∃ t : Fin cfg0.N, win0_1.index t = ![q0.val, q1.val, 0, 0] :=
  (by decide +kernel : ∀ (q0 : Fin 8) (q1 : Fin 4), ∃ t : Fin grid0.N, win0_1.index t = ![q0.val, q1.val, 0, 0])

section Region

variable (V : (c : Dev nD) → (b : Ref sig .tc) → Buf (Elt Ideal) ((c : Thread nD τ).loc b))

/-- What grid point t writes back is its block of `pooled` of x as the region finds it. -/
theorem flushed_eq (c : Dev nD) (t : Fin cfg0.N) :
    (dat0 V c).flushed 1 t = ((cfg0.win 1).blk t).view.read (Elt Ideal) (pooled (V c main_arg0)) := by
  show (cfg0.win 1).cut (grid0.coords t) ((dat0 V c).after 1 t) = _
  rw [after0_1]
  unfold out0_1
  rw [View.canon_unit_zero zero4]
  simp only [View.ld_unit_zero (S := S32x128x32x32) zero4]
  obtain ⟨e0, e1, e2, e3, e4, e5⟩ := index_facts t
  funext j
  obtain ⟨p, q, u, v, rfl⟩ : ∃ (p : Fin 32) (q : Fin 128) (u v : Fin 1), j = ix4 p q u v :=
    ⟨j 0, j 1, j 2, j 3, eq_ix4 j⟩
  show k0_pay1 (iblk0 V c 0 t) (ix4 p q u v) = pooled (V c main_arg0) (((cfg0.win 1).blk t).view.emb (ix4 p q u v))
  refine (stored_apply (iblk0 V c 0 t) p q u v).trans ?_
  unfold pooled
  refine congrArg₂ (· * ·) ?_ rfl
  refine Finset.sum_congr rfl fun h _ => Finset.sum_congr rfl fun w _ => ?_
  show V c main_arg0 (((cfg0.win 0).blk t).view.emb (ix4 p q h w)) = V c main_arg0 _
  refine congrArg (V c main_arg0) (funext fun a => Fin.ext ?_)
  match a with
  | ⟨0, _⟩ => show win0_0.index t (0 : Fin 4) * 32 + 1 * p.val = win0_1.index t (0 : Fin 4) * 32 + 1 * p.val; omega
  | ⟨1, _⟩ => show win0_0.index t (1 : Fin 4) * 128 + 1 * q.val = win0_1.index t (1 : Fin 4) * 128 + 1 * q.val; omega
  | ⟨2, _⟩ => show win0_0.index t (2 : Fin 4) * 32 + 1 * h.val = h.val; omega
  | ⟨3, _⟩ => show win0_0.index t (3 : Fin 4) * 32 + 1 * w.val = w.val; omega

/-- An index of the pooled array is in point t's block iff each coordinate is in the block's range on its axis. -/
theorem mem_blk (t : Fin cfg0.N) (i : S256x512x1x1.Idx) :
    i ∈ ((cfg0.win 1).blk t).view.set ↔ ∀ a : Fin 4, win0_1.index t a * S32x128x1x1.size a ≤ (i a).val ∧ (i a).val < win0_1.index t a * S32x128x1x1.size a + S32x128x1x1.size a := by
  show i ∈ ((View.whole main_v0).slice (win0_1.rect t)).set ↔ _
  rw [View.set_slice_whole, Rect.mem_set_unit]
  exact Iff.rfl

/-- Every index of the pooled array is in some grid point's block. -/
theorem covered (i : S256x512x1x1.Idx) :
    ∃ t : Fin cfg0.N, (cfg0.win 1).flush t = true ∧ i ∈ ((cfg0.win 1).blk t).view.set := by
  have hi0 : (i 0).val < 256 := (i 0).isLt
  have hi1 : (i 1).val < 512 := (i 1).isLt
  have hi2 : (i 2).val < 1 := (i 2).isLt
  have hi3 : (i 3).val < 1 := (i 3).isLt
  obtain ⟨t, ht⟩ := index_onto ⟨(i 0).val / 32, by omega⟩ ⟨(i 1).val / 128, by omega⟩
  have q0 : win0_1.index t (0 : Fin 4) = (i 0).val / 32 := congrFun ht 0
  have q1 : win0_1.index t (1 : Fin 4) = (i 1).val / 128 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 32 ≤ (i 0).val ∧ (i 0).val < win0_1.index t (0 : Fin 4) * 32 + 32; omega
  | ⟨1, _⟩ => show win0_1.index t (1 : Fin 4) * 128 ≤ (i 1).val ∧ (i 1).val < win0_1.index t (1 : Fin 4) * 128 + 128; omega
  | ⟨2, _⟩ => show win0_1.index t (2 : Fin 4) * 1 ≤ (i 2).val ∧ (i 2).val < win0_1.index t (2 : Fin 4) * 1 + 1; omega
  | ⟨3, _⟩ => show win0_1.index t (3 : Fin 4) * 1 ≤ (i 3).val ∧ (i 3).val < win0_1.index t (3 : Fin 4) * 1 + 1; omega

/-- The pooled array after the region: `pooled` of x as the region finds it. -/
theorem final (c : Dev nD) : (dat0 V c).arrAt 1 cfg0.N = pooled (V c main_arg0) :=
  (dat0 V c).arrAt_eq_of_cover 1 (pooled (V c main_arg0)) (fun t _ => flushed_eq V c t) (covered)

end Region

end Cert.KernelIdeal.Pool

end
-- ==== Proof.Affine.lean ====
/-
  The second kernel region (scale and shift), read as a value at the extended reals.

  A grid point (i, j) of the 8 × 8 grid loads the block [32 i, 32 i + 32) × [64 j, 64 j + 64) × 32 × 32 of x and the
  blocks (i, j, 0, 0) of the per-channel scale and shift arrays ([256, 512, 1, 1]); it broadcasts the two [32, 64, 1, 1]
  blocks over the 32 × 32 planes, multiplies, adds, and writes the result back at x's block. The blocks tile the result, so
  after the region it holds at (b, c, h, w) the value x (b, c, h, w) · scale (b, c, 0, 0) + shift (b, c, 0, 0): `affine`.
-/
import proofs.«174117_j74612171866186_1_alg».proof.Proof.Gen.KernelIdeal.Frame
import proofs.«174117_j74612171866186_1_alg».proof.Proof.LibChannelwise
import Idealize.ShloMosaic.Lib.Pipeline.Value
import Idealize.ShloMosaic.Lib.ValueIdx

set_option maxRecDepth 16384

noncomputable section

namespace Cert.KernelIdeal.Scale

open Cert.KernelIdeal Cert.KernelIdeal.Gen Cert.Lib.Channelwise
open Idealize.ShloMosaic Idealize.ShloMosaic.TcCoe Idealize.ShloMosaic.ValueIdx Idealize.SL.Sem
open Idealize.ShloMosaic.Pipeline (Dat)

/-- x scaled and shifted channel by channel: at (b, c, h, w), x (b, c, h, w) · s (b, c, 0, 0) + d (b, c, 0, 0). -/
def affine (x : FVec Ideal S256x512x32x32 .f32) (s d : FVec Ideal S256x512x1x1 .f32) : FVec Ideal S256x512x32x32 .f32 :=
  fun i => x i * s (ix4 (i 0) (i 1) 0 0) + d (ix4 (i 0) (i 1) 0 0)

/-- What a grid point stores, at (p, q, h, w) of its block, from the three loaded blocks. -/
theorem stored_apply (x0 : FVec Ideal S32x64x32x32 .f32) (x1 x5 : FVec Ideal S32x64x1x1 .f32)
    (p : Fin 32) (q : Fin 64) (h w : Fin 32) :
    k1_pay1 (F := Ideal) x0 x1 x5 (ix4 p q h w) = x0 (ix4 p q h w) * x1 (ix4 p q 0 0) + x5 (ix4 p q 0 0) := by
  unfold k1_pay1
  refine (addf_apply _ _ _).trans ?_
  refine congrArg₂ (· + ·) ?_ ?_
  · refine (mulf_apply _ _ _).trans ?_
    refine congrArg₂ (· * ·) rfl ?_
    refine (broadcastTo_spread_apply _ broadcasts_S32x64x1x1_S32x64x32x32 p q h w).trans ?_
    exact congrFun (shapeCast_self x1 _) _
  · refine (broadcastTo_spread_apply _ broadcasts_S32x64x1x1_S32x64x32x32 p q h w).trans ?_
    exact congrFun (shapeCast_self x5 _) _

theorem zero4 : (![0, 0, 0, 0] : Fin 4 → Nat) = fun _ => 0 := funext fun a => by fin_cases a <;> rfl

/-- The four windows' index maps over the grid: x's block is the result's block; the scale's and the shift's blocks move
    with it on the first two axes and sit at 0 on the last two, where the result's block index is 0 as well. -/
theorem index_facts : ∀ t : Fin cfg1.N, win1_0.index t (0 : Fin 4) = win1_3.index t (0 : Fin 4)
    ∧ win1_0.index t (1 : Fin 4) = win1_3.index t (1 : Fin 4)
    ∧ win1_0.index t (2 : Fin 4) = win1_3.index t (2 : Fin 4)
    ∧ win1_0.index t (3 : Fin 4) = win1_3.index t (3 : Fin 4)
    ∧ win1_1.index t (0 : Fin 4) = win1_3.index t (0 : Fin 4)
    ∧ win1_1.index t (1 : Fin 4) = win1_3.index t (1 : Fin 4)
    ∧ win1_1.index t (2 : Fin 4) = 0 ∧ win1_1.index t (3 : Fin 4) = 0
    ∧ win1_2.index t (0 : Fin 4) = win1_3.index t (0 : Fin 4)
    ∧ win1_2.index t (1 : Fin 4) = win1_3.index t (1 : Fin 4)
    ∧ win1_2.index t (2 : Fin 4) = 0 ∧ win1_2.index t (3 : Fin 4) = 0 :=
  (by decide +kernel : ∀ t : Fin grid1.N, _)

/-- Every block (i, j, 0, 0) of the result is some grid point's. -/
theorem index_onto : ∀ (q0 : Fin 8) (q1 : Fin 8), ∃ t : Fin cfg1.N, win1_3.index t = ![q0.val, q1.val, 0, 0] :=
  (by decide +kernel : ∀ (q0 : Fin 8) (q1 : Fin 8), ∃ t : Fin grid1.N, win1_3.index t = ![q0.val, q1.val, 0, 0])

section Region

variable (V : (c : Dev nD) → (b : Ref sig .tc) → Buf (Elt Ideal) ((c : Thread nD τ).loc b))

/-- What grid point t writes back is its block of `affine` of the three arrays as the region finds them. -/
theorem flushed_eq (c : Dev nD) (t : Fin cfg1.N) :
    (dat1 V c).flushed 3 t
      = ((cfg1.win 3).blk t).view.read (Elt Ideal) (affine (V c main_arg0) (V c main_v20) (V c main_v22)) := by
  show (cfg1.win 3).cut (grid1.coords t) ((dat1 V c).after 3 t) = _
  rw [after1_3]
  unfold out1_3
  rw [View.canon_unit_zero zero4]
  simp only [View.ld_unit_zero (S := S32x64x32x32) zero4, View.ld_unit_zero (S := S32x64x1x1) zero4]
  obtain ⟨e0, e1, e2, e3, f0, f1, f2, f3, g0, g1, g2, g3⟩ := index_facts t
  funext j
  obtain ⟨p, q, h, w, rfl⟩ : ∃ (p : Fin 32) (q : Fin 64) (h w : Fin 32), j = ix4 p q h w :=
    ⟨j 0, j 1, j 2, j 3, eq_ix4 j⟩
  show k1_pay1 (iblk1 V c 0 t) (iblk1 V c 1 t) (iblk1 V c 2 t) (ix4 p q h w)
    = affine (V c main_arg0) (V c main_v20) (V c main_v22) (((cfg1.win 3).blk t).view.emb (ix4 p q h w))
  refine (stored_apply (iblk1 V c 0 t) (iblk1 V c 1 t) (iblk1 V c 2 t) p q h w).trans ?_
  unfold affine
  refine congrArg₂ (· + ·) (congrArg₂ (· * ·) ?_ ?_) ?_
  · show V c main_arg0 (((cfg1.win 0).blk t).view.emb (ix4 p q h w)) = V c main_arg0 (((cfg1.win 3).blk t).view.emb (ix4 p q h w))
    refine congrArg (V c main_arg0) (funext fun a => Fin.ext ?_)
    match a with
    | ⟨0, _⟩ => show win1_0.index t (0 : Fin 4) * 32 + 1 * p.val = win1_3.index t (0 : Fin 4) * 32 + 1 * p.val; omega
    | ⟨1, _⟩ => show win1_0.index t (1 : Fin 4) * 64 + 1 * q.val = win1_3.index t (1 : Fin 4) * 64 + 1 * q.val; omega
    | ⟨2, _⟩ => show win1_0.index t (2 : Fin 4) * 32 + 1 * h.val = win1_3.index t (2 : Fin 4) * 32 + 1 * h.val; omega
    | ⟨3, _⟩ => show win1_0.index t (3 : Fin 4) * 32 + 1 * w.val = win1_3.index t (3 : Fin 4) * 32 + 1 * w.val; omega
  · show V c main_v20 (((cfg1.win 1).blk t).view.emb (ix4 p q 0 0)) = V c main_v20 _
    refine congrArg (V c main_v20) (funext fun a => Fin.ext ?_)
    match a with
    | ⟨0, _⟩ => show win1_1.index t (0 : Fin 4) * 32 + 1 * p.val = win1_3.index t (0 : Fin 4) * 32 + 1 * p.val; omega
    | ⟨1, _⟩ => show win1_1.index t (1 : Fin 4) * 64 + 1 * q.val = win1_3.index t (1 : Fin 4) * 64 + 1 * q.val; omega
    | ⟨2, _⟩ => show win1_1.index t (2 : Fin 4) * 1 + 1 * 0 = 0; omega
    | ⟨3, _⟩ => show win1_1.index t (3 : Fin 4) * 1 + 1 * 0 = 0; omega
  · show V c main_v22 (((cfg1.win 2).blk t).view.emb (ix4 p q 0 0)) = V c main_v22 _
    refine congrArg (V c main_v22) (funext fun a => Fin.ext ?_)
    match a with
    | ⟨0, _⟩ => show win1_2.index t (0 : Fin 4) * 32 + 1 * p.val = win1_3.index t (0 : Fin 4) * 32 + 1 * p.val; omega
    | ⟨1, _⟩ => show win1_2.index t (1 : Fin 4) * 64 + 1 * q.val = win1_3.index t (1 : Fin 4) * 64 + 1 * q.val; omega
    | ⟨2, _⟩ => show win1_2.index t (2 : Fin 4) * 1 + 1 * 0 = 0; omega
    | ⟨3, _⟩ => show win1_2.index t (3 : Fin 4) * 1 + 1 * 0 = 0; omega

/-- An index of the result is in point t's block iff each coordinate is in the block's range on its axis. -/
theorem mem_blk (t : Fin cfg1.N) (i : S256x512x32x32.Idx) :
    i ∈ ((cfg1.win 3).blk t).view.set ↔ ∀ a : Fin 4, win1_3.index t a * S32x64x32x32.size a ≤ (i a).val ∧ (i a).val < win1_3.index t a * S32x64x32x32.size a + S32x64x32x32.size a := by
  show i ∈ ((View.whole main_v23).slice (win1_3.rect t)).set ↔ _
  rw [View.set_slice_whole, Rect.mem_set_unit]
  exact Iff.rfl

/-- Every index of the result is in some grid point's block. -/
theorem covered (i : S256x512x32x32.Idx) :
    ∃ t : Fin cfg1.N, (cfg1.win 3).flush t = true ∧ i ∈ ((cfg1.win 3).blk t).view.set := by
  have hi0 : (i 0).val < 256 := (i 0).isLt
  have hi1 : (i 1).val < 512 := (i 1).isLt
  have hi2 : (i 2).val < 32 := (i 2).isLt
  have hi3 : (i 3).val < 32 := (i 3).isLt
  obtain ⟨t, ht⟩ := index_onto ⟨(i 0).val / 32, by omega⟩ ⟨(i 1).val / 64, by omega⟩
  have q0 : win1_3.index t (0 : Fin 4) = (i 0).val / 32 := congrFun ht 0
  have q1 : win1_3.index t (1 : Fin 4) = (i 1).val / 64 := congrFun ht 1
  have q2 : win1_3.index t (2 : Fin 4) = 0 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 32 ≤ (i 0).val ∧ (i 0).val < win1_3.index t (0 : Fin 4) * 32 + 32; omega
  | ⟨1, _⟩ => show win1_3.index t (1 : Fin 4) * 64 ≤ (i 1).val ∧ (i 1).val < win1_3.index t (1 : Fin 4) * 64 + 64; omega
  | ⟨2, _⟩ => show win1_3.index t (2 : Fin 4) * 32 ≤ (i 2).val ∧ (i 2).val < win1_3.index t (2 : Fin 4) * 32 + 32; omega
  | ⟨3, _⟩ => show win1_3.index t (3 : Fin 4) * 32 ≤ (i 3).val ∧ (i 3).val < win1_3.index t (3 : Fin 4) * 32 + 32; omega

/-- The result array after the region: `affine` of x, the scale and the shift as the region finds them. -/
theorem final (c : Dev nD) :
    (dat1 V c).arrAt 3 cfg1.N = affine (V c main_arg0) (V c main_v20) (V c main_v22) :=
  (dat1 V c).arrAt_eq_of_cover 3 (affine (V c main_arg0) (V c main_v20) (V c main_v22)) (fun t _ => flushed_eq V c t) (covered)

end Region

end Cert.KernelIdeal.Scale

end
-- ==== Proof.Excite.lean ====
/-
  The host operations between the two kernel regions, as functions of the pooled array and the four weight arrays.

  From the pooled matrix y ([256, 512]) the program computes z = relu (y · W₁ᵀ + b₁) · W₂ᵀ + b₂ ([256, 1024]): `dense`.
  The per-channel scale is the logistic function 1 / (1 + exp (−·)) of the first 512 columns of z (`gate`), the
  per-channel shift the last 512 columns (`shift`); each is reshaped to [256, 512, 1, 1] for the second region.
  Read through the program's run, the second region finds x as launched, the scale at `gate (dense …)` and the shift at
  `shift (dense …)` of the first region's pooled array reshaped to [256, 512].
-/
import proofs.«174117_j74612171866186_1_alg».proof.Proof.Gen.KernelIdeal.Frame
import Idealize.ShloMosaic.Lib.StableHlo.Run
import Idealize.ShloMosaic.PureOps.Ideal

set_option maxRecDepth 16384

noncomputable section

namespace Cert.KernelIdeal.Excite

open Cert.KernelIdeal Cert.KernelIdeal.Gen
open Idealize.ShloMosaic Idealize.ShloMosaic.TcCoe Idealize.SL.Sem Idealize.ShloMosaic.StableHlo

/-- The two dense layers with the rectifier between them: relu (y · W₁ᵀ + b₁) · W₂ᵀ + b₂. -/
def dense (y : FVec Ideal S256x512 .f32) (w1 : FVec Ideal S32x512 .f32) (b1 : FVec Ideal S32 .f32)
    (w2 : FVec Ideal S1024x32 .f32) (b2 : FVec Ideal S1024 .f32) : FVec Ideal S256x1024 .f32 :=
  addf (Host.dotGeneral (F := Ideal) dot_S256x32_S32x1024_S256x1024_1_0_0_1_n_n none
      (maximumf (addf (Host.dotGeneral (F := Ideal) dot_S256x512_S512x32_S256x32_1_0_0_1_n_n none y
            (transpose S512x32 [1, 0] w1 transposes_S32x512_S512x32_1_0))
          (broadcastInDim S256x32 ![0, 1] bcast_S1x32_S256x32_0_1 (broadcastInDim S1x32 ![1] bcast_S32_S1x32_1 b1)))
        (broadcastInDim S256x32 ![] bcast_S_S256x32 (constant (F := Ideal) S_ .f32 0x00000000#32)))
      (transpose S32x1024 [1, 0] w2 transposes_S1024x32_S32x1024_1_0))
    (broadcastInDim S256x1024 ![0, 1] bcast_S1x1024_S256x1024_0_1 (broadcastInDim S1x1024 ![1] bcast_S1024_S1x1024_1 b2))

/-- The logistic function of the first 512 columns. -/
def gate (z : FVec Ideal S256x1024 .f32) : FVec Ideal S256x512 .f32 :=
  Host.divf (F := Ideal) (broadcastInDim S256x512 ![] bcast_S_S256x512 (constant (F := Ideal) S_ .f32 0x3F800000#32))
    (addf (broadcastInDim S256x512 ![] bcast_S_S256x512 (constant (F := Ideal) S_ .f32 0x3F800000#32))
      (Host.exp (F := Ideal) (Host.negf (F := Ideal) (extractStridedSlice S256x512 ![0, 0] z slices_S256x1024_S256x512_0_0))))

/-- The last 512 columns. -/
def shift (z : FVec Ideal S256x1024 .f32) : FVec Ideal S256x512 .f32 :=
  extractStridedSlice S256x512 ![0, 512] z slices_S256x1024_S256x512_0_512

section Fold

variable (U : Valuation τ sig (Elt Ideal))

/-- The host operations leave x where it was. -/
theorem fold_x : StableHlo.after (hostOps1_2 (F := Ideal)) (StableHlo.after (hostOps1_1 (F := Ideal)) (StableHlo.after (hostOps1 (F := Ideal)) U)) (Proc.devRef .tc main_arg0)
    = U (Proc.devRef .tc main_arg0) := by
  simp only [hostOps1, hostOps1_1, hostOps1_2]
  after_results_simp

/-- The scale array the second region finds. -/
theorem fold_scale : StableHlo.after (hostOps1_2 (F := Ideal)) (StableHlo.after (hostOps1_1 (F := Ideal)) (StableHlo.after (hostOps1 (F := Ideal)) U)) (Proc.devRef .tc main_v20)
    = shapeCast S256x512x1x1 (gate (dense (shapeCast S256x512 (U (Proc.devRef .tc main_v0)) shapeCasts_S256x512x1x1_S256x512)
        (U (Proc.devRef .tc main_arg1)) (U (Proc.devRef .tc main_arg2)) (U (Proc.devRef .tc main_arg3)) (U (Proc.devRef .tc main_arg4))))
      shapeCasts_S256x512_S256x512x1x1 := by
  simp only [hostOps1, hostOps1_1, hostOps1_2]
  after_results_simp <;> rfl

/-- The shift array the second region finds. -/
theorem fold_shift : StableHlo.after (hostOps1_2 (F := Ideal)) (StableHlo.after (hostOps1_1 (F := Ideal)) (StableHlo.after (hostOps1 (F := Ideal)) U)) (Proc.devRef .tc main_v22)
    = shapeCast S256x512x1x1 (shift (dense (shapeCast S256x512 (U (Proc.devRef .tc main_v0)) shapeCasts_S256x512x1x1_S256x512)
        (U (Proc.devRef .tc main_arg1)) (U (Proc.devRef .tc main_arg2)) (U (Proc.devRef .tc main_arg3)) (U (Proc.devRef .tc main_arg4))))
      shapeCasts_S256x512_S256x512x1x1 := by
  simp only [hostOps1, hostOps1_1, hostOps1_2]
  after_results_simp <;> rfl

end Fold

end Cert.KernelIdeal.Excite

end
-- ==== Proof.KernelValue.lean ====
/-
  The idealized kernel program's result as one function of its five argument arrays.

  The first region leaves the pooled array (Pooled.lean); the host operations turn it into the per-channel scale and
  shift (Excite.lean); the second region scales and shifts x (Affine.lean). Composed along the program's run — each
  boundary's contents read back to the launch memory — the result array ends at `result` of the launch contents.
-/
import proofs.«174117_j74612171866186_1_alg».proof.Proof.KernelIdealRun
import proofs.«174117_j74612171866186_1_alg».proof.Proof.Pooled
import proofs.«174117_j74612171866186_1_alg».proof.Proof.Affine
import proofs.«174117_j74612171866186_1_alg».proof.Proof.Excite

set_option maxRecDepth 16384

noncomputable section

namespace Cert.KernelIdeal.Whole

open Cert.KernelIdeal Cert.KernelIdeal.Gen
open Idealize.ShloMosaic Idealize.ShloMosaic.TcCoe Idealize.SL.Sem

/-- The pooled matrix [256, 512] the dense layers take: the pooled array with its two unit axes dropped. -/
def squeezed (x : FVec Ideal S256x512x32x32 .f32) : FVec Ideal S256x512 .f32 :=
  shapeCast S256x512 (Pool.pooled x) shapeCasts_S256x512x1x1_S256x512

/-- The whole program: x scaled by the gate of the dense layers of its pooled matrix and shifted by their last columns. -/
def result (x : FVec Ideal S256x512x32x32 .f32) (w1 : FVec Ideal S32x512 .f32) (b1 : FVec Ideal S32 .f32)
    (w2 : FVec Ideal S1024x32 .f32) (b2 : FVec Ideal S1024 .f32) : FVec Ideal S256x512x32x32 .f32 :=
  Scale.affine x
    (shapeCast S256x512x1x1 (Excite.gate (Excite.dense (squeezed x) w1 b1 w2 b2)) shapeCasts_S256x512_S256x512x1x1)
    (shapeCast S256x512x1x1 (Excite.shift (Excite.dense (squeezed x) w1 b1 w2 b2)) shapeCasts_S256x512_S256x512x1x1)

variable (m : (ℓ : Loc nD τ sig) → Buf (Elt Ideal) ℓ) (ρ : Dev nD → PrngReg)

/-! ## The first region's exit contents, read back -/

theorem exit_pooled (c : Dev nD) :
    W1 m ρ c (Proc.devRef .tc main_v0) = Pool.pooled (m ((c : Thread nD τ).loc main_arg0)) :=
  (W1_arr m ρ c 1).trans (Pool.final (V0 m ρ) c)
theorem exit_x (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem exit_w1 (c : Dev nD) : W1 m ρ c (Proc.devRef .tc main_arg1) = m ((c : Thread nD τ).loc main_arg1) :=
  W1_of_ne m ρ c main_arg1 (by decide)
theorem exit_b1 (c : Dev nD) : W1 m ρ c (Proc.devRef .tc main_arg2) = m ((c : Thread nD τ).loc main_arg2) :=
  W1_of_ne m ρ c main_arg2 (by decide)
theorem exit_w2 (c : Dev nD) : W1 m ρ c (Proc.devRef .tc main_arg3) = m ((c : Thread nD τ).loc main_arg3) :=
  W1_of_ne m ρ c main_arg3 (by decide)
theorem exit_b2 (c : Dev nD) : W1 m ρ c (Proc.devRef .tc main_arg4) = m ((c : Thread nD τ).loc main_arg4) :=
  W1_of_ne m ρ c main_arg4 (by decide)

/-! ## The second region's entry contents -/

theorem entry_x (c : Dev nD) : V4 m ρ c main_arg0 = m ((c : Thread nD τ).loc main_arg0) :=
  (Excite.fold_x (W1 m ρ c)).trans (exit_x m ρ c)

theorem entry_scale (c : Dev nD) :
    V4 m ρ c main_v20 = shapeCast S256x512x1x1 (Excite.gate (Excite.dense (squeezed (m ((c : Thread nD τ).loc main_arg0)))
        (m ((c : Thread nD τ).loc main_arg1)) (m ((c : Thread nD τ).loc main_arg2))
        (m ((c : Thread nD τ).loc main_arg3)) (m ((c : Thread nD τ).loc main_arg4)))) shapeCasts_S256x512_S256x512x1x1 := by
  refine (Excite.fold_scale (W1 m ρ c)).trans ?_
  rw [exit_pooled, exit_w1, exit_b1, exit_w2, exit_b2]
  rfl

theorem entry_shift (c : Dev nD) :
    V4 m ρ c main_v22 = shapeCast S256x512x1x1 (Excite.shift (Excite.dense (squeezed (m ((c : Thread nD τ).loc main_arg0)))
        (m ((c : Thread nD τ).loc main_arg1)) (m ((c : Thread nD τ).loc main_arg2))
        (m ((c : Thread nD τ).loc main_arg3)) (m ((c : Thread nD τ).loc main_arg4)))) shapeCasts_S256x512_S256x512x1x1 := by
  refine (Excite.fold_shift (W1 m ρ c)).trans ?_
  rw [exit_pooled, exit_w1, exit_b1, exit_w2, exit_b2]
  rfl

/-- The result array at the last boundary is `result` of the launch contents. -/
theorem exit_result (c : Dev nD) :
    W5 m ρ c (Proc.devRef .tc main_v23) = result (m ((c : Thread nD τ).loc main_arg0)) (m ((c : Thread nD τ).loc main_arg1))
      (m ((c : Thread nD τ).loc main_arg2)) (m ((c : Thread nD τ).loc main_arg3)) (m ((c : Thread nD τ).loc main_arg4)) := by
  refine (W5_arr m ρ c 3).trans ?_
  rw [Scale.final (V4 m ρ) c, entry_x, entry_scale, entry_shift]
  rfl

/-- The program's run with its result named: every weakly fair execution ends with the result array at `result` of the
    launch contents and the arguments as launched. -/
theorem run : θ_run defs (onTc (τ := τ) (main (F := Ideal))) ⟨m, fun _ => 0, ρ⟩ (fun r => ∀ c : Dev nD,
      r.2.mem ((c.tc : Thread nD τ).loc main_v23) = result (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (exit_result m ρ c), (h c).2⟩) (GenRun.run_result m ρ)

end Cert.KernelIdeal.Whole

end
-- ==== Proof.Consts.lean ====
/-
  The two float words the mean is spelt with, as the reals they denote: 0x44800000 is 1024 (the reference divides the
  plane's sum by it) and 0x3A800000 is 2⁻¹⁰ = 1/1024 (the kernel multiplies the plane's sum by it). Both are exact.
-/
import Idealize.ShloMosaic.PureOps.Ideal

noncomputable section

namespace Cert.Consts

open Idealize.ShloMosaic

/-- The word 0x44800000 denotes the real 1024. -/
theorem ofBits_1024 : Ideal.ofBits .f32 0x44800000#32 = ((1024 : ℝ) : EReal) := by
  simp [Ideal.ofBits, Ideal.ieee, -EReal.coe_mul]; norm_num

/-- The word 0x3A800000 denotes the real 1/1024. -/
theorem ofBits_inv1024 : Ideal.ofBits .f32 0x3A800000#32 = ((1 / 1024 : ℝ) : EReal) := by
  simp [Ideal.ofBits, Ideal.ieee, -EReal.coe_mul]; norm_num

end Cert.Consts

end
-- ==== Proof.Bridge.lean ====
/-
  The idealized reference computes the idealized kernel program's function.

  The reference takes the mean of each (b, c) plane of x as (0 + Σ over h, w of x (b, c, h, w)) / 1024; the kernel's pooled
  matrix holds (Σ over h, w of x (b, c, h, w)) · 2⁻¹⁰. On the extended reals a quotient by the nonzero real 1024 is the
  product with 1/1024, at the infinities too, so the two matrices are equal (`mean_eq`): no finiteness is used. From the
  mean both programs apply the same dense layers, gate and column split, and the reference's two broadcasts
  [256, 512] → [256, 512, 1, 1] → [256, 512, 32, 32] read the (b, c) entry, as the kernel's reshape to [256, 512, 1, 1] and its
  per-plane scale and shift do.
-/
import proofs.«174117_j74612171866186_1_alg».proof.Proof.Gen.ReferenceIdeal.Read
import proofs.«174117_j74612171866186_1_alg».proof.Proof.KernelValue
import proofs.«174117_j74612171866186_1_alg».proof.Proof.Consts

set_option maxRecDepth 16384

noncomputable section

namespace Cert.Bridge

open Idealize.ShloMosaic Idealize.ShloMosaic.ValueIdx Cert.Lib.Channelwise
open Cert.ReferenceIdeal.Read
open Cert.KernelIdeal (S256x512x32x32 S32x512 S32 S1024x32 S1024 S256x512 S256x512x1x1)
open Cert.KernelIdeal.Whole Cert.KernelIdeal.Excite

variable (x : FVec Ideal S256x512x32x32 .f32) (w1 : FVec Ideal S32x512 .f32) (b1 : FVec Ideal S32 .f32)
  (w2 : FVec Ideal S1024x32 .f32) (b2 : FVec Ideal S1024 .f32)

/-- The reference's mean is the kernel's pooled matrix: s / 1024 = s · 2⁻¹⁰ for every extended real s. -/
theorem mean_eq : val_main_v2 (F := Ideal) x = squeezed x := by
  funext j
  obtain ⟨a, b, rfl⟩ : ∃ (a : Fin 256) (b : Fin 512), j = ix2 a b := ⟨j 0, j 1, eq_ix2 j⟩
  refine Eq.trans ?_ (shapeCast_squeeze_apply _ _ a b).symm
  show Ideal.div (Ideal.hostReduceAdd _ x (Ideal.ofBits .f32 0x00000000#32) (ix2 a b)) (Ideal.ofBits .f32 0x44800000#32)
    = (∑ h : Fin 32, ∑ w : Fin 32, x (ix4 a b h w)) * Ideal.ofBits .f32 0x3A800000#32
  rw [hostReduceAdd_trailing2, Ideal.ofBits_zero_f32, zero_add, Cert.Consts.ofBits_1024, Cert.Consts.ofBits_inv1024,
    Ideal.div_coe (by norm_num : (1024 : ℝ) ≠ 0)]

/-- The reference's gate and its shift are the kernel program's functions of the reference's mean: the two programs
    spell the same operations. -/
theorem gate_spelt : val_main_v21 (F := Ideal) x w1 b1 w2 b2 = gate (dense (val_main_v2 (F := Ideal) x) w1 b1 w2 b2) := rfl
theorem shift_spelt : val_main_v15 (F := Ideal) x w1 b1 w2 b2 = shift (dense (val_main_v2 (F := Ideal) x) w1 b1 w2 b2) := rfl

/-- The reference's result is the kernel program's `result`, index by index. -/
theorem reference_eq : val_main_v27 (F := Ideal) x w1 b1 w2 b2 = result x w1 b1 w2 b2 := by
  funext i
  obtain ⟨a, b, h, w, rfl⟩ : ∃ (a : Fin 256) (b : Fin 512) (h w : Fin 32), i = ix4 a b h w :=
    ⟨i 0, i 1, i 2, i 3, eq_ix4 i⟩
  rw [val_main_v27_apply, val_main_v25_apply, val_main_v24_apply, val_main_v22_apply, val_main_v26_apply, val_main_v23_apply]
  have i1 : idx_main_v22 (idx_main_v24 (ix4 a b h w)) = ix2 a b :=
    funext fun d => Fin.ext (by match d with | ⟨0, _⟩ => rfl | ⟨1, _⟩ => rfl)
  have i2 : idx_main_v23 (idx_main_v26 (ix4 a b h w)) = ix2 a b :=
    funext fun d => Fin.ext (by match d with | ⟨0, _⟩ => rfl | ⟨1, _⟩ => rfl)
  rw [i1, i2, gate_spelt, shift_spelt, mean_eq]
  show x (ix4 a b h w) * gate (dense (squeezed x) w1 b1 w2 b2) (ix2 a b) + shift (dense (squeezed x) w1 b1 w2 b2) (ix2 a b)
    = x (ix4 a b h w) * shapeCast S256x512x1x1 (gate (dense (squeezed x) w1 b1 w2 b2)) _ (ix4 a b 0 0)
      + shapeCast S256x512x1x1 (shift (dense (squeezed x) w1 b1 w2 b2)) _ (ix4 a b 0 0)
  rw [shapeCast_expand_apply, shapeCast_expand_apply]

end Cert.Bridge

end
-- ==== Proof.lean ====
/-
  The certificate's claims, assembled.

  The kernel program pools each (b, c) plane of x to its sum times 2⁻¹⁰ in a first kernel region, runs two dense layers,
  a rectifier, a logistic gate and a column split on the host, and in a second kernel region scales x by the gate and
  shifts it by the split's second half, channel by channel. The reference takes the mean as a sum divided by 1024 and
  does the rest with host operations and broadcasts. At the extended reals s · 2⁻¹⁰ = s / 1024 for every s, so the two
  programs compute one function (Proof/Bridge.lean, over Proof/KernelValue.lean and the generated run of the reference).

  The three frames are the generated ones (the reference's is its generated run with the result dropped); the ideal pass
  rewrote nothing, so `preserves` is trivial; `algebraic` pairs the kernel program's run, its result named, with the
  reference's run, the arguments' agreement rewritten.
-/
import proofs.«174117_j74612171866186_1_alg».proof.Defs
import proofs.«174117_j74612171866186_1_alg».proof.Proof.Gen.Kernel
import proofs.«174117_j74612171866186_1_alg».proof.Proof.Gen.Kernel.Frame
import proofs.«174117_j74612171866186_1_alg».proof.Proof.Gen.KernelIdeal
import proofs.«174117_j74612171866186_1_alg».proof.Proof.Gen.KernelIdeal.Frame
import proofs.«174117_j74612171866186_1_alg».proof.Proof.Gen.ReferenceIdeal
import proofs.«174117_j74612171866186_1_alg».proof.Proof.Gen.ReferenceIdeal.Run
import proofs.«174117_j74612171866186_1_alg».proof.Proof.Gen.ReferenceIdeal.Read
import proofs.«174117_j74612171866186_1_alg».proof.Proof.Gen.Pre_finite_inputs
import proofs.«174117_j74612171866186_1_alg».proof.Proof.KernelValue
import proofs.«174117_j74612171866186_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end, from memories agreeing on the arguments, with the result array at `result` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v27_eq _ _ _ _ _).trans (Cert.Bridge.reference_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
